-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x1024 .f32) (main_arg6 : FVec F S1024 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S2048x4096 .f32) (main_arg4 : FVec F S4096 .f32) (main_arg5 : FVec F S1024x1024 .f32) (main_arg6 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S1x4096 : Shape := ⟨2, ![1, 4096]⟩
abbrev S1x1024 : Shape := ⟨2, ![1, 1024]⟩
abbrev S128x1024 : Shape := ⟨2, ![128, 1024]⟩
abbrev S1024x4096 : Shape := ⟨2, ![1024, 4096]⟩
abbrev S128x4096 : Shape := ⟨2, ![128, 4096]⟩
abbrev S128 : Shape := ⟨1, ![128]⟩
abbrev S128x1 : Shape := ⟨2, ![128, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x4096, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S2048x4096, .bf16⟩
  | .hbm, ⟨8, _⟩ => ⟨S1024x1024, .bf16⟩
  | .hbm, ⟨9, _⟩ => ⟨S1x4096, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S2048x4096, .bf16⟩
  | .local _ .vmem, ⟨7, _⟩ => ⟨S1x4096, .f32⟩
  | .local _ .vmem, ⟨8, _⟩ => ⟨S1024x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  shapeCasts_S128_S128x1 : S128.ShapeCasts S128x1
  broadcasts_S128x1_S128x1024 : S128x1.Broadcasts S128x1024
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S16384x1024.size a
  hwx0_9 : ∀ i : grid0.Coords, EltTy.bits .f32 = 32 ∨ (Rect.block (s := S16384x1024) S128x1024.size (cc0_transform_9 i) (hinb0_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x4096 : Shape := ⟨2, ![2048, 4096]⟩
abbrev S4096 : Shape := ⟨1, ![4096]⟩
abbrev S1024x1024 : Shape := ⟨2, ![1024, 1024]⟩
abbrev S1024 : Shape := ⟨1, ![1024]⟩
abbrev S16384x2048 : Shape := ⟨2, ![16384, 2048]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x4096, .f32⟩
  | .hbm, ⟨4, _⟩ => ⟨S4096, .f32⟩
  | .hbm, ⟨5, _⟩ => ⟨S1024x1024, .f32⟩
  | .hbm, ⟨6, _⟩ => ⟨S1024, .f32⟩
  | .hbm, ⟨7, _⟩ => ⟨S16384x2048, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_cst : Ref sig .tc := ⟨.hbm, 50, rfl⟩
abbrev main_call0_v0 : Ref sig .tc := ⟨.hbm, 51, rfl⟩
abbrev main_call0_cst_0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_cst_1 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_v37 : Ref sig .tc := ⟨.hbm, 64, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  dot_S16384x2048_S2048x4096_S16384x4096_1_0_0_1_n_n_wf : DotDims.WF S16384x2048 S2048x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Cell.lean ====
/-
  One step of an LSTM cell followed by a row-wise log-softmax, stated row by row over the extended reals.

  A row of the batch carries an input row `xr`, a hidden row `hr` and a cell row `cr` (1024 entries each). The
  four gates are packed along the columns of one weight matrix `Wg` of 2048 rows and 4096 columns — forget,
  input, update, output, 1024 columns each —, whose first 1024 rows multiply `xr` and whose last 1024 rows
  multiply `hr`:
      gate j   = (∑ k, xr k · Wg (k, j)  +  ∑ k, hr k · Wg (1024 + k, j)) + bg j
      c' q     = σ (gate q) · cr q + σ (gate (1024 + q)) · tanh (gate (2048 + q))
      h' q     = σ (gate (3072 + q)) · tanh (c' q)
      logit j  = (∑ k, h' k · Wout (k, j)) + bout j
      out j    = (logit j − M) − log (∑ j, exp (logit j − M)),     M the largest logit of the row.
  The only law used between two arrangements of these sums is that a sum over 2048 indices is the sum over its first
  1024 plus the sum over its last 1024 (`sum_halves`): addition of extended reals is commutative and associative, so
  no finiteness is needed.
-/
import Idealize.ShloMosaic.PureOps.Ideal
import Idealize.ShloMosaic.Lib.ValueIdx
import Mathlib.Algebra.BigOperators.Fin
import Mathlib.Data.Finset.Fold

noncomputable section

namespace Cert.Cell

open Idealize.ShloMosaic

/-- Row `k` of the upper half of the packed gate weights: the rows that multiply the input. -/
abbrev upper (k : Fin 1024) : Fin 2048 := ⟨k.val, by omega⟩
/-- Row `1024 + k`: the rows that multiply the hidden state. -/
abbrev lower (k : Fin 1024) : Fin 2048 := ⟨k.val + 1024, by omega⟩

/-- Column `q` of the forget gate, -/
abbrev colF (q : Fin 1024) : Fin 4096 := ⟨q.val, by omega⟩
/-- of the input gate, -/
abbrev colI (q : Fin 1024) : Fin 4096 := ⟨q.val + 1024, by omega⟩
/-- of the update (candidate) gate, -/
abbrev colU (q : Fin 1024) : Fin 4096 := ⟨q.val + 2048, by omega⟩
/-- of the output gate. -/
abbrev colO (q : Fin 1024) : Fin 4096 := ⟨q.val + 3072, by omega⟩

/-- A sum over 2048 indices is the sum over the first 1024 plus the sum over the last 1024. -/
theorem sum_halves {M : Type*} [AddCommMonoid M] (f : Fin 2048 → M) :
    ∑ k : Fin 2048, f k = ∑ k : Fin 1024, f (upper k) + ∑ k : Fin 1024, f (lower k) := by
  have h := Fin.sum_univ_add (a := 1024) (b := 1024) (fun i : Fin (1024 + 1024) => f ⟨i.val, by omega⟩)
  have e : ∑ k : Fin 2048, f k = ∑ i : Fin (1024 + 1024), f ⟨i.val, by omega⟩ :=
    (Fintype.sum_equiv (finCongr (by norm_num : 1024 + 1024 = 2048)) _ _ (fun i => rfl)).symm
  rw [e, h]
  congr 1

section
variable (Wg : Fin 2048 → Fin 4096 → EReal) (bg : Fin 4096 → EReal)
  (Wout : Fin 1024 → Fin 1024 → EReal) (bout : Fin 1024 → EReal)
  (xr hr cr : Fin 1024 → EReal)

/-- The pre-activation of gate column `j`: the input's and the hidden state's contributions, then the bias. -/
def gate (j : Fin 4096) : EReal :=
  (∑ k : Fin 1024, xr k * Wg (upper k) j + ∑ k : Fin 1024, hr k * Wg (lower k) j) + bg j

/-- The new cell state. -/
def cNew (q : Fin 1024) : EReal :=
  Ideal.logistic (gate Wg bg xr hr (colF q)) * cr q
    + Ideal.logistic (gate Wg bg xr hr (colI q)) * Ideal.tanh (gate Wg bg xr hr (colU q))

/-- The new hidden state. -/
def hNew (q : Fin 1024) : EReal :=
  Ideal.logistic (gate Wg bg xr hr (colO q)) * Ideal.tanh (cNew Wg bg xr hr cr q)

/-- The output projection of the new hidden state. -/
def logit (j : Fin 1024) : EReal :=
  (∑ k : Fin 1024, hNew Wg bg xr hr cr k * Wout k j) + bout j

/-- The row's largest logit, folded from the pattern of minus infinity. -/
def rowMax : EReal :=
  (Finset.univ : Finset (Fin 1024)).fold max (Ideal.ofBits .f32 0xFF800000#32) (logit Wg bg Wout bout xr hr cr)

/-- A logit less the row's largest. -/
def shifted (j : Fin 1024) : EReal := logit Wg bg Wout bout xr hr cr j - rowMax Wg bg Wout bout xr hr cr

/-- The logarithm of the sum of the exponentials of the shifted logits. -/
def lse : EReal := Ideal.log (∑ j : Fin 1024, Ideal.exp (shifted Wg bg Wout bout xr hr cr j))

/-- The row's log-softmax. -/
def logSoftmax (j : Fin 1024) : EReal := shifted Wg bg Wout bout xr hr cr j - lse Wg bg Wout bout xr hr cr

end

/-! ## Arrays as rows and matrices -/

/-- Row `p` of a two-axis array. -/
abbrev row {n k : Nat} (X : (⟨2, ![n, k]⟩ : Shape).Idx → EReal) (p : Fin n) : Fin k → EReal := fun b => X (ValueIdx.ix2 p b)
/-- A two-axis array as a matrix. -/
abbrev mat {n k : Nat} (W : (⟨2, ![n, k]⟩ : Shape).Idx → EReal) : Fin n → Fin k → EReal := fun a b => W (ValueIdx.ix2 a b)
/-- A one-axis array as a vector. -/
abbrev vec {k : Nat} (B : (⟨1, ![k]⟩ : Shape).Idx → EReal) : Fin k → EReal := fun b => B (ValueIdx.ix1 b)
/-- The one row of a [1, k] array as a vector. -/
abbrev oneRow {k : Nat} (B : (⟨2, ![1, k]⟩ : Shape).Idx → EReal) : Fin k → EReal := fun b => B (ValueIdx.ix2 (0 : Fin 1) b)

/-! ## The three results over the whole batch -/

section
variable (x h c : (⟨2, ![16384, 1024]⟩ : Shape).Idx → EReal) (wg : (⟨2, ![2048, 4096]⟩ : Shape).Idx → EReal)
  (bg : (⟨1, ![4096]⟩ : Shape).Idx → EReal) (wout : (⟨2, ![1024, 1024]⟩ : Shape).Idx → EReal) (bout : (⟨1, ![1024]⟩ : Shape).Idx → EReal)

/-- The new cell state of every batch row. -/
def cellOut : (⟨2, ![16384, 1024]⟩ : Shape).Idx → EReal := fun i =>
  cNew (mat wg) (vec bg) (row x ⟨(i 0).val, ValueIdx.idx2_lt0 i⟩) (row h ⟨(i 0).val, ValueIdx.idx2_lt0 i⟩)
    (row c ⟨(i 0).val, ValueIdx.idx2_lt0 i⟩) ⟨(i 1).val, ValueIdx.idx2_lt1 i⟩

/-- The new hidden state of every batch row. -/
def hiddenOut : (⟨2, ![16384, 1024]⟩ : Shape).Idx → EReal := fun i =>
  hNew (mat wg) (vec bg) (row x ⟨(i 0).val, ValueIdx.idx2_lt0 i⟩) (row h ⟨(i 0).val, ValueIdx.idx2_lt0 i⟩)
    (row c ⟨(i 0).val, ValueIdx.idx2_lt0 i⟩) ⟨(i 1).val, ValueIdx.idx2_lt1 i⟩

/-- The log-softmax of the projected new hidden state of every batch row. -/
def logitsOut : (⟨2, ![16384, 1024]⟩ : Shape).Idx → EReal := fun i =>
  logSoftmax (mat wg) (vec bg) (mat wout) (vec bout) (row x ⟨(i 0).val, ValueIdx.idx2_lt0 i⟩)
    (row h ⟨(i 0).val, ValueIdx.idx2_lt0 i⟩) (row c ⟨(i 0).val, ValueIdx.idx2_lt0 i⟩) ⟨(i 1).val, ValueIdx.idx2_lt1 i⟩

end

/-- The fold of `max` from any start is at least the start, so taking the maximum with the start once more
    changes nothing. -/
theorem max_start_fold {ι : Type*} (s : Finset ι) (b : EReal) (f : ι → EReal) :
    max b (s.fold max b f) = s.fold max b f :=
  max_eq_right ((Finset.le_fold_max b).mpr (Or.inl le_rfl))

end Cert.Cell

end
-- ==== Proof.KernelGates.lean ====
/-
  The kernel body's arithmetic on one block of 128 batch rows, read at an index of the block.

  With the block's input rows `X`, hidden rows `H`, cell rows `C`, the two halves `Wu` (rows 0–1023) and `Wl`
  (rows 1024–2047) of the packed gate weights, the gate bias `B` as one row, the projection `Wo` and its bias `Bo` as one
  row: the gate pre-activations at (p, j) are `(∑ k, X (p, k) · Wu (k, j) + ∑ k, H (p, k) · Wl (k, j)) + B (0, j)` (two
  matrix products into zero accumulators, added, then the bias row broadcast over the rows), and the projection of the new
  hidden rows at (p, j) is `∑ k, h' (p, k) · Wo (k, j)`. A change of float format is the identity on the extended reals.
-/
import proofs.«118563_j22677427323268_1_alg».proof.Proof.Gen.KernelIdeal.Skeleton
import proofs.«118563_j22677427323268_1_alg».proof.Proof.Cell
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The gate product: [128, 1024] × [1024, 4096] -/

theorem lhs_gate_0 (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_gate_1 (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_gate_0 (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_gate_1 (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A product of a block of rows with 1024 weight rows into the zero accumulator, at (p, j): the sum over the 1024 shared
    indices. -/
theorem gateProduct_apply (A : FVec Ideal S128x1024 .bf16) (W : FVec Ideal S1024x4096 .bf16) (p : Fin 128) (j : Fin 4096) :
    matmul dot_S128x1024_S1024x4096_S128x4096_1_0_0_1_n_n none A W (constant S128x4096 .f32 0x00000000#32) (ix2 p j)
      = ∑ k : Fin 1024, A (ix2 p k) * W (ix2 k j) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p j) ((ValueIdx.contrEquiv1 dot_S128x1024_S1024x4096_S128x4096_1_0_0_1_n_n 1024 rfl rfl).symm k) = ix2 p k := funext fun a => Fin.ext (by
    match a with
    | ⟨0, _⟩ => exact lhs_gate_0 _ _
    | ⟨1, _⟩ => exact (lhs_gate_1 _ _).trans hk)
  have er : dot_S128x1024_S1024x4096_S128x4096_1_0_0_1_n_n.rhsIdx (ix2 p j) ((ValueIdx.contrEquiv1 dot_S128x1024_S1024x4096_S128x4096_1_0_0_1_n_n 1024 rfl rfl).symm k) = ix2 k j := funext fun a => Fin.ext (by
    match a with
    | ⟨0, _⟩ => exact (rhs_gate_0 _ _).trans hk
    | ⟨1, _⟩ => exact rhs_gate_1 _ _)
  rw [el, er]

/-! ## The output projection: [128, 1024] × [1024, 1024] -/

theorem lhs_proj_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_proj_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_proj_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_proj_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The projection of a block of rows into the zero accumulator, at (p, j). -/
theorem projProduct_apply (A : FVec Ideal S128x1024 .bf16) (W : FVec Ideal S1024x1024 .bf16) (p : Fin 128) (j : Fin 1024) :
    matmul dot_S128x1024_S1024x1024_S128x1024_1_0_0_1_n_n none A W (constant S128x1024 .f32 0x00000000#32) (ix2 p j)
      = ∑ k : Fin 1024, A (ix2 p k) * W (ix2 k j) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p j) ((ValueIdx.contrEquiv1 dot_S128x1024_S1024x1024_S128x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S128x1024_S1024x1024_S128x1024_1_0_0_1_n_n.rhsIdx (ix2 p j) ((ValueIdx.contrEquiv1 dot_S128x1024_S1024x1024_S128x1024_1_0_0_1_n_n 1024 rfl rfl).symm k) = ix2 k j := funext fun a => Fin.ext (by
    match a with
    | ⟨0, _⟩ => exact (rhs_proj_0 _ _).trans hk
    | ⟨1, _⟩ => exact rhs_proj_1 _ _)
  rw [el, er]

/-! ## The gate pre-activations of a block -/

/-- The body's gate pre-activations as the tree of its vector operations. -/
theorem gates_eq (X H : Vec Ideal S128x1024 .f32) (Wu Wl : Vec Ideal S1024x4096 .bf16) (B : Vec Ideal S1x4096 .f32) :
    k0_pay2 X H Wu Wl B
      = addf (addf (matmul dot_S128x1024_S1024x4096_S128x4096_1_0_0_1_n_n none (truncf .bf16 X Facts₀.bitsLt_bf16_f32) (shapeCast S1024x4096 Wu Facts₀.shapeCasts_S1024x4096_S1024x4096 : FVec Ideal S1024x4096 .bf16) (constant S128x4096 .f32 0x00000000#32))
          (matmul dot_S128x1024_S1024x4096_S128x4096_1_0_0_1_n_n none (truncf .bf16 H Facts₀.bitsLt_bf16_f32) (shapeCast S1024x4096 Wl Facts₀.shapeCasts_S1024x4096_S1024x4096 : FVec Ideal S1024x4096 .bf16) (constant S128x4096 .f32 0x00000000#32)))
        (broadcastTo S128x4096 (shapeCast S1x4096 B Facts₀.shapeCasts_S1x4096_S1x4096 : FVec Ideal S1x4096 .f32) Facts₀.broadcasts_S1x4096_S128x4096) := rfl

/-- The gate pre-activation of block row `p` at gate column `j`. -/
theorem gates_apply (X H : Vec Ideal S128x1024 .f32) (Wu Wl : Vec Ideal S1024x4096 .bf16) (B : Vec Ideal S1x4096 .f32)
    (p : Fin 128) (j : Fin 4096) :
    k0_pay2 X H Wu Wl B (ix2 p j)
      = (∑ k : Fin 1024, X (ix2 p k) * Wu (ix2 k j) + ∑ k : Fin 1024, H (ix2 p k) * Wl (ix2 k j)) + B (ix2 (0 : Fin 1) j) := by
  rw [gates_eq, addf_apply, addf_apply, gateProduct_apply, gateProduct_apply, shapeCast_self, shapeCast_self, shapeCast_self]
  congr 1
  exact broadcastTo_apply _ _ (ix2 p j) (ix2 (0 : Fin 1) j) (fun a => match a with
    | ⟨0, _⟩ => by show 0 = (if (1 : Nat) = 1 then 0 else p.val); rw [if_pos rfl]
    | ⟨1, _⟩ => by show j.val = (if (4096 : Nat) = 1 then 0 else j.val); rw [if_neg (by decide)])

/-! ## The projection of the new hidden rows -/

theorem proj_eq (X H : Vec Ideal S128x1024 .f32) (Wu Wl : Vec Ideal S1024x4096 .bf16) (B : Vec Ideal S1x4096 .f32)
    (C : Vec Ideal S128x1024 .f32) (Wo : Vec Ideal S1024x1024 .bf16) :
    k0_pay5 X H Wu Wl B C Wo
      = matmul dot_S128x1024_S1024x1024_S128x1024_1_0_0_1_n_n none (truncf .bf16 (k0_pay4 X H Wu Wl B C) Facts₀.bitsLt_bf16_f32) (shapeCast S1024x1024 Wo Facts₀.shapeCasts_S1024x1024_S1024x1024 : FVec Ideal S1024x1024 .bf16) (constant S128x1024 .f32 0x00000000#32) := rfl

/-- The projection at (p, j): the sum over the hidden index of the block's new hidden rows times the projection weights. -/
theorem proj_apply (X H : Vec Ideal S128x1024 .f32) (Wu Wl : Vec Ideal S1024x4096 .bf16) (B : Vec Ideal S1x4096 .f32)
    (C : Vec Ideal S128x1024 .f32) (Wo : Vec Ideal S1024x1024 .bf16) (p : Fin 128) (j : Fin 1024) :
    k0_pay5 X H Wu Wl B C Wo (ix2 p j) = ∑ k : Fin 1024, k0_pay4 X H Wu Wl B C (ix2 p k) * Wo (ix2 k j) := by
  rw [proj_eq, projProduct_apply, shapeCast_self]
  rfl

end Cert.KernelIdeal.Block

end
-- ==== Proof.KernelBlock.lean ====
/-
  What one grid point leaves in its three output blocks, as the cell's formulas over the block's rows.

  A block holds 128 batch rows. With `X`, `H`, `C` the block's input, hidden and cell rows, `W` the whole packed gate
  weights (the body reads its upper and lower 1024 rows separately), `B` the gate bias as one row, `Wo` the projection and
  `Bo` its bias as one row, block row `p` of the three results is the new cell state, the new hidden state and the
  log-softmax of the projected new hidden state of THAT row alone: every reduction in the body (the two matrix products'
  sums, the row maximum, the row sum of exponentials) runs along the columns of one row.
-/
import proofs.«118563_j22677427323268_1_alg».proof.Proof.Gen.KernelIdeal.Value
import proofs.«118563_j22677427323268_1_alg».proof.Proof.KernelGates

noncomputable section

namespace Cert.KernelIdeal.Block

open Cert.KernelIdeal Cert.KernelIdeal.Gen Idealize.ShloMosaic Idealize.ShloMosaic.ValueIdx Cert.Cell

/-! ## The two halves of the packed weights, as the body loads them -/

/-- The first load of the weights reads rows 0 to 1023. -/
theorem upperLoad_apply (W : Vec Ideal S2048x4096 .bf16) (k : Fin 1024) (j : Fin 4096) :
    View.ld W r0_1 (ix2 k j) = W (ix2 (upper k) j) := by
  show W (r0_1.idx (ix2 k j)) = W (ix2 (upper k) j)
  congr 1; funext a; apply Fin.ext
  match a with
  | ⟨0, _⟩ => show 0 + 1 * k.val = k.val; omega
  | ⟨1, _⟩ => show 0 + 1 * j.val = j.val; omega

/-- The second load reads rows 1024 to 2047. -/
theorem lowerLoad_apply (W : Vec Ideal S2048x4096 .bf16) (k : Fin 1024) (j : Fin 4096) :
    View.ld W r0_2 (ix2 k j) = W (ix2 (lower k) j) := by
  show W (r0_2.idx (ix2 k j)) = W (ix2 (lower k) j)
  congr 1; funext a; apply Fin.ext
  match a with
  | ⟨0, _⟩ => show 1024 + 1 * k.val = k.val + 1024; omega
  | ⟨1, _⟩ => show 0 + 1 * j.val = j.val; omega

section
variable (X H C : Vec Ideal S128x1024 .f32) (W : Vec Ideal S2048x4096 .bf16) (B : Vec Ideal S1x4096 .f32)
  (Wo : Vec Ideal S1024x1024 .bf16) (Bo : Vec Ideal S1x1024 .f32)

/-- The gate pre-activations of block row `p`. -/
theorem gate_block (p : Fin 128) (j : Fin 4096) :
    k0_pay2 X H (View.ld W r0_1) (View.ld W r0_2) B (ix2 p j) = gate (mat W) (oneRow B) (row X p) (row H p) j := by
  rw [gates_apply]
  unfold gate
  refine congrArg₂ (· + ·) (congrArg₂ (· + ·) (Finset.sum_congr rfl fun k _ => ?_) (Finset.sum_congr rfl fun k _ => ?_)) rfl
  · rw [upperLoad_apply]
  · rw [lowerLoad_apply]

/-- The new cell state of block row `p`. -/
theorem cNew_block (p : Fin 128) (q : Fin 1024) :
    k0_pay3 X H (View.ld W r0_1) (View.ld W r0_2) B C (ix2 p q)
      = cNew (mat W) (oneRow B) (row X p) (row H p) (row C p) q := by
  rw [Value.piece9_0]
  show FloatOps.addf (FloatOps.mulf (FloatOps.logistic (k0_pay2 X H (View.ld W r0_1) (View.ld W r0_2) B (Value.ix9_0 (r0_0.idx (ix2 p q))))) (C (Value.ix9_1 (r0_0.idx (ix2 p q)))))
      (FloatOps.mulf (FloatOps.logistic (k0_pay2 X H (View.ld W r0_1) (View.ld W r0_2) B (Value.ix9_2 (r0_0.idx (ix2 p q))))) (FloatOps.tanh (k0_pay2 X H (View.ld W r0_1) (View.ld W r0_2) B (Value.ix9_3 (r0_0.idx (ix2 p q)))))) = _
  have i0 : Value.ix9_0 (r0_0.idx (ix2 p q)) = ix2 p (colF q) := funext fun a => Fin.ext (by
    match a with
    | ⟨0, _⟩ => show 0 + 1 * p.val = p.val; omega
    | ⟨1, _⟩ => show 0 + 1 * q.val = q.val; omega)
  have i1 : Value.ix9_1 (r0_0.idx (ix2 p q)) = ix2 p q := funext fun a => Fin.ext (by
    match a with
    | ⟨0, _⟩ => show 0 + 1 * p.val = p.val; omega
    | ⟨1, _⟩ => show 0 + 1 * q.val = q.val; omega)
  have i2 : Value.ix9_2 (r0_0.idx (ix2 p q)) = ix2 p (colI q) := funext fun a => Fin.ext (by
    match a with
    | ⟨0, _⟩ => show 0 + 1 * p.val = p.val; omega
    | ⟨1, _⟩ => show 0 + 1 * q.val + 1024 = q.val + 1024; omega)
  have i3 : Value.ix9_3 (r0_0.idx (ix2 p q)) = ix2 p (colU q) := funext fun a => Fin.ext (by
    match a with
    | ⟨0, _⟩ => show 0 + 1 * p.val = p.val; omega
    | ⟨1, _⟩ => show 0 + 1 * q.val + 2048 = q.val + 2048; omega)
  rw [i0, i1, i2, i3, gate_block, gate_block, gate_block]
  rfl

/-- The new hidden state of block row `p`. -/
theorem hNew_block (p : Fin 128) (q : Fin 1024) :
    k0_pay4 X H (View.ld W r0_1) (View.ld W r0_2) B C (ix2 p q)
      = hNew (mat W) (oneRow B) (row X p) (row H p) (row C p) q := by
  show FloatOps.mulf (FloatOps.logistic (extractStridedSlice S128x1024 ![0, 3072] (k0_pay2 X H (View.ld W r0_1) (View.ld W r0_2) B) Facts₀.slices_S128x4096_o0_3072_S128x1024 (ix2 p q)))
      (FloatOps.tanh (k0_pay3 X H (View.ld W r0_1) (View.ld W r0_2) B C (ix2 p q))) = _
  rw [cNew_block, extractStridedSlice_apply ![0, 3072] _ _ (ix2 p q) (ix2 p (colO q)) (fun a => match a with
    | ⟨0, _⟩ => by show p.val = 0 + p.val; omega
    | ⟨1, _⟩ => by show q.val + 3072 = 3072 + q.val; omega), gate_block]
  rfl

/-- The block's logits: the projection of its new hidden rows plus the bias row broadcast over the rows. -/
abbrev logits : FVec Ideal S128x1024 .f32 :=
  addf (k0_pay5 X H (View.ld W r0_1) (View.ld W r0_2) B C (View.ld Wo r0_4))
    (broadcastTo S128x1024 (shapeCast S1x1024 (View.ld Bo r0_5) Facts₀.shapeCasts_S1x1024_S1x1024 : FVec Ideal S1x1024 .f32) Facts₀.broadcasts_S1x1024_S128x1024)

/-- A logit of block row `p`. -/
theorem logits_apply (p : Fin 128) (j : Fin 1024) :
    logits X H C W B Wo Bo (ix2 p j) = logit (mat W) (oneRow B) (mat Wo) (oneRow Bo) (row X p) (row H p) (row C p) j := by
  have hz : (![0, 0] : Fin 2 → Nat) = fun _ => 0 := funext fun a => by fin_cases a <;> rfl
  show k0_pay5 X H (View.ld W r0_1) (View.ld W r0_2) B C (View.ld Wo r0_4) (ix2 p j)
      + broadcastTo S128x1024 (shapeCast S1x1024 (View.ld Bo r0_5) Facts₀.shapeCasts_S1x1024_S1x1024 : FVec Ideal S1x1024 .f32) Facts₀.broadcasts_S1x1024_S128x1024 (ix2 p j) = _
  rw [proj_apply, View.ld_unit_zero (S := S1024x1024) hz, View.ld_unit_zero (S := S1x1024) hz]
  unfold logit
  refine congrArg₂ (· + ·) (Finset.sum_congr rfl fun k _ => ?_) ?_
  · rw [hNew_block]
  refine (broadcastTo_apply _ _ (ix2 p j) (ix2 (0 : Fin 1) j) (fun a => match a with
    | ⟨0, _⟩ => by show 0 = (if (1 : Nat) = 1 then 0 else p.val); rw [if_pos rfl]
    | ⟨1, _⟩ => by show j.val = (if (1024 : Nat) = 1 then 0 else j.val); rw [if_neg (by decide)])).trans ?_
  exact congrFun (shapeCast_self Bo _) _

end

end Cert.KernelIdeal.Block

end
-- ==== Proof.KernelSoftmax.lean ====
/-
  The log-softmax a grid point leaves in its first output block, row by row.

  The body takes the block's logits `L`, their maximum along each row (folded from minus infinity), subtracts it from the
  row (the maximum kept as a column and broadcast back over the row), sums the exponentials along the row, takes the
  logarithm and subtracts that from the shifted row. Every step reads one row only, so block row `p` of the result is the
  log-softmax of row `p`'s logits.
-/
import proofs.«118563_j22677427323268_1_alg».proof.Proof.KernelBlock

noncomputable section

namespace Cert.KernelIdeal.Block

open Cert.KernelIdeal Cert.KernelIdeal.Gen Idealize.ShloMosaic Idealize.ShloMosaic.ValueIdx Cert.Cell

/-- A reduced row index with the column put back is (row, column). -/
theorem lift_row (h : S128x1024.Reduces [1] S128) (p : Fin 128) (k : Fin (S128x1024.size 1)) :
    h.lift (ix1 p) k = ix2 p (⟨k.val, k.isLt⟩ : Fin 1024) := by
  funext c; apply Fin.ext
  fin_cases c <;> rfl

/-- A value per row, kept as a column and broadcast back over the row, reads the row's value everywhere on the row. -/
theorem column_apply (v : FVec Ideal S128 .f32) (p : Fin 128) (j : Fin 1024) :
    broadcastTo S128x1024 (shapeCast S128x1 v Facts₀.shapeCasts_S128_S128x1 : FVec Ideal S128x1 .f32) Facts₀.broadcasts_S128x1_S128x1024 (ix2 p j)
      = v (ix1 p) := by
  refine (broadcastTo_apply _ _ (ix2 p j) (ix2 p (0 : Fin 1)) (fun a => match a with
    | ⟨0, _⟩ => by show p.val = (if (128 : Nat) = 1 then 0 else p.val); rw [if_neg (by decide)]
    | ⟨1, _⟩ => by show 0 = (if (1 : Nat) = 1 then 0 else j.val); rw [if_pos rfl])).trans ?_
  exact shapeCast_apply _ _ (ix2 p (0 : Fin 1)) (ix1 p) (by
    rw [Shape.rowMajor_val_one, Shape.rowMajor_val_two]; show p.val = p.val * 1 + 0; omega)

section
variable (X H C : Vec Ideal S128x1024 .f32) (W : Vec Ideal S2048x4096 .bf16) (B : Vec Ideal S1x4096 .f32)
  (Wo : Vec Ideal S1024x1024 .bf16) (Bo : Vec Ideal S1x1024 .f32)

/-- Each row's largest logit. -/
abbrev blockMax : FVec Ideal S128 .f32 :=
  multiReduction .maximumf [1] S128 (logits X H C W B Wo Bo) 0xFF800000#32 Facts₀.reduces_S128x1024_S128 (.inl rfl) rfl

/-- The logits less their row's largest. -/
abbrev blockShifted : FVec Ideal S128x1024 .f32 :=
  subf (logits X H C W B Wo Bo)
    (broadcastTo S128x1024 (shapeCast S128x1 (blockMax X H C W B Wo Bo) Facts₀.shapeCasts_S128_S128x1 : FVec Ideal S128x1 .f32) Facts₀.broadcasts_S128x1_S128x1024)

/-- Each row's sum of exponentials of the shifted logits. -/
abbrev blockSum : FVec Ideal S128 .f32 :=
  multiReduction .add [1] S128 (exp (blockShifted X H C W B Wo Bo)) 0x00000000#32 Facts₀.reduces_S128x1024_S128 (.inl rfl) rfl

theorem blockMax_apply (p : Fin 128) :
    blockMax X H C W B Wo Bo (ix1 p) = rowMax (mat W) (oneRow B) (mat Wo) (oneRow Bo) (row X p) (row H p) (row C p) := by
  refine (Ideal.multiReduction_maximumf_single (logits X H C W B Wo Bo) 0xFF800000#32 Facts₀.reduces_S128x1024_S128 (.inl rfl) rfl (ix1 p)).trans ?_
  unfold rowMax
  refine congrArg (fun f => Finset.fold max (Ideal.ofBits .f32 0xFF800000#32) f (Finset.univ : Finset (Fin 1024))) ?_
  funext k
  show logits X H C W B Wo Bo (Facts₀.reduces_S128x1024_S128.lift (ix1 p) k) = _
  rw [lift_row]
  exact logits_apply X H C W B Wo Bo p _

theorem blockShifted_apply (p : Fin 128) (j : Fin 1024) :
    blockShifted X H C W B Wo Bo (ix2 p j) = shifted (mat W) (oneRow B) (mat Wo) (oneRow Bo) (row X p) (row H p) (row C p) j := by
  show logits X H C W B Wo Bo (ix2 p j)
      - broadcastTo S128x1024 (shapeCast S128x1 (blockMax X H C W B Wo Bo) Facts₀.shapeCasts_S128_S128x1 : FVec Ideal S128x1 .f32) Facts₀.broadcasts_S128x1_S128x1024 (ix2 p j) = _
  rw [column_apply, logits_apply, blockMax_apply]
  rfl

theorem blockSum_apply (p : Fin 128) :
    blockSum X H C W B Wo Bo (ix1 p)
      = ∑ j : Fin 1024, Ideal.exp (shifted (mat W) (oneRow B) (mat Wo) (oneRow Bo) (row X p) (row H p) (row C p) j) := by
  refine (Ideal.multiReduction_add_single (exp (blockShifted X H C W B Wo Bo)) 0x00000000#32 Facts₀.reduces_S128x1024_S128 (.inl rfl) rfl (ix1 p)).trans ?_
  refine Finset.sum_congr rfl fun k _ => ?_
  show Ideal.exp (blockShifted X H C W B Wo Bo (Facts₀.reduces_S128x1024_S128.lift (ix1 p) k)) = _
  rw [lift_row, blockShifted_apply]
  rfl

/-- Block row `p` of the first result: the log-softmax of that row's logits. -/
theorem logSoftmax_block (p : Fin 128) (j : Fin 1024) :
    k0_pay1 (k0_pay5 X H (View.ld W r0_1) (View.ld W r0_2) B C (View.ld Wo r0_4)) (View.ld Bo r0_5) (ix2 p j)
      = logSoftmax (mat W) (oneRow B) (mat Wo) (oneRow Bo) (row X p) (row H p) (row C p) j := by
  show blockShifted X H C W B Wo Bo (ix2 p j)
      - broadcastTo S128x1024 (log (shapeCast S128x1 (blockSum X H C W B Wo Bo) Facts₀.shapeCasts_S128_S128x1 : FVec Ideal S128x1 .f32)) Facts₀.broadcasts_S128x1_S128x1024 (ix2 p j) = _
  have hcol : broadcastTo S128x1024 (log (shapeCast S128x1 (blockSum X H C W B Wo Bo) Facts₀.shapeCasts_S128_S128x1 : FVec Ideal S128x1 .f32)) Facts₀.broadcasts_S128x1_S128x1024 (ix2 p j)
      = Ideal.log (blockSum X H C W B Wo Bo (ix1 p)) := by
    refine (broadcastTo_apply _ _ (ix2 p j) (ix2 p (0 : Fin 1)) (fun a => match a with
      | ⟨0, _⟩ => by show p.val = (if (128 : Nat) = 1 then 0 else p.val); rw [if_neg (by decide)]
      | ⟨1, _⟩ => by show 0 = (if (1 : Nat) = 1 then 0 else j.val); rw [if_pos rfl])).trans ?_
    show Ideal.log ((shapeCast S128x1 (blockSum X H C W B Wo Bo) Facts₀.shapeCasts_S128_S128x1 : FVec Ideal S128x1 .f32) (ix2 p (0 : Fin 1))) = _
    refine congrArg Ideal.log ?_
    exact shapeCast_apply _ _ (ix2 p (0 : Fin 1)) (ix1 p) (by
      rw [Shape.rowMajor_val_one, Shape.rowMajor_val_two]; show p.val = p.val * 1 + 0; omega)
  rw [hcol, blockShifted_apply, blockSum_apply]
  rfl

end

end Cert.KernelIdeal.Block

end
-- ==== Proof.KernelArrays.lean ====
/-
  From the blocks to the arrays: after the kernel's run the three result arrays hold, row by row, the log-softmax of the
  projected new hidden state, the new hidden state and the new cell state of the argument arrays.

  Grid point `t` of 128 works on batch rows 128·t … 128·t + 127: its input, hidden and cell blocks are those rows of the
  argument arrays, and it sees the whole packed gate weights, the gate bias (reshaped to one row), the projection and its bias
  (one row). Before the grid starts the weights are only changed in float format, which the extended reals do not see. What the
  point writes back to each result is its 128 rows of that result's whole-array function, and the 128 points' blocks tile the
  16384 rows.
-/
import proofs.«118563_j22677427323268_1_alg».proof.Proof.KernelSoftmax

set_option maxRecDepth 16384

noncomputable section

namespace Cert.KernelIdeal.Arrays

open Cert.KernelIdeal Cert.KernelIdeal.Gen Cert.KernelIdeal.Block Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The argument arrays and the blocks, at their literal types -/

abbrev xArr (c : Dev nD) : Vec Ideal S16384x1024 .f32 := m ((c : Thread nD τ).loc main_arg0)
abbrev hArr (c : Dev nD) : Vec Ideal S16384x1024 .f32 := m ((c : Thread nD τ).loc main_arg1)
abbrev cArr (c : Dev nD) : Vec Ideal S16384x1024 .f32 := m ((c : Thread nD τ).loc main_arg2)
abbrev wgArr (c : Dev nD) : Vec Ideal S2048x4096 .f32 := m ((c : Thread nD τ).loc main_arg3)
abbrev bgArr (c : Dev nD) : Vec Ideal S4096 .f32 := m ((c : Thread nD τ).loc main_arg4)
abbrev woArr (c : Dev nD) : Vec Ideal S1024x1024 .f32 := m ((c : Thread nD τ).loc main_arg5)
abbrev boArr (c : Dev nD) : Vec Ideal S1024 .f32 := m ((c : Thread nD τ).loc main_arg6)

abbrev xBlk (c : Dev nD) (t : Fin cfg0.N) : Vec Ideal S128x1024 .f32 := iblk m c 0 t
abbrev hBlk (c : Dev nD) (t : Fin cfg0.N) : Vec Ideal S128x1024 .f32 := iblk m c 1 t
abbrev cBlk (c : Dev nD) (t : Fin cfg0.N) : Vec Ideal S128x1024 .f32 := iblk m c 2 t
abbrev wBlk (c : Dev nD) (t : Fin cfg0.N) : Vec Ideal S2048x4096 .bf16 := iblk m c 3 t
abbrev bBlk (c : Dev nD) (t : Fin cfg0.N) : Vec Ideal S1x4096 .f32 := iblk m c 4 t
abbrev woBlk (c : Dev nD) (t : Fin cfg0.N) : Vec Ideal S1024x1024 .bf16 := iblk m c 5 t
abbrev boBlk (c : Dev nD) (t : Fin cfg0.N) : Vec Ideal S1x1024 .f32 := iblk m c 6 t

/-! ## What the host does before the grid -/

/-- The packed gate weights reach the kernel unchanged as extended reals. -/
theorem wg_entry (c : Dev nD) : (V m c main_v0 : S2048x4096.Idx → EReal) = wgArr m c := by
  dsimp only [Gen.V, Gen.hostOps0]; after_results; rfl

/-- So does the projection. -/
theorem wo_entry (c : Dev nD) : (V m c main_v1 : S1024x1024.Idx → EReal) = woArr m c := by
  dsimp only [Gen.V, Gen.hostOps0]; after_results; rfl

/-- The gate bias as one row. -/
theorem bg_entry (c : Dev nD) (j : Fin 4096) : (V m c main_v2 : S1x4096.Idx → EReal) (ix2 (0 : Fin 1) j) = bgArr m c (ix1 j) := by
  have e : (V m c main_v2 : S1x4096.Idx → EReal) = shapeCast S1x4096 (bgArr m c) Facts₀.shapeCasts_S4096_S1x4096 := by
    dsimp only [Gen.V, Gen.hostOps0]; after_results; rfl
  rw [e]
  exact shapeCast_apply _ _ (ix2 (0 : Fin 1) j) (ix1 j) (by
    rw [Shape.rowMajor_val_one, Shape.rowMajor_val_two]; show j.val = 0 * 4096 + j.val; omega)

/-- The projection's bias as one row. -/
theorem bo_entry (c : Dev nD) (j : Fin 1024) : (V m c main_v3 : S1x1024.Idx → EReal) (ix2 (0 : Fin 1) j) = boArr m c (ix1 j) := by
  have e : (V m c main_v3 : S1x1024.Idx → EReal) = shapeCast S1x1024 (boArr m c) Facts₀.shapeCasts_S1024_S1x1024 := by
    dsimp only [Gen.V, Gen.hostOps0]; after_results; rfl
  rw [e]
  exact shapeCast_apply _ _ (ix2 (0 : Fin 1) j) (ix1 j) (by
    rw [Shape.rowMajor_val_one, Shape.rowMajor_val_two]; show j.val = 0 * 1024 + j.val; omega)

/-! ## The blocks of a point -/

/-- The printed index maps, decided over the grid: the three row-tiled inputs and the three results sit at block row `t`,
    the four resident operands at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem point_lt (t : Fin cfg0.N) : t.val < 128 := lt_of_lt_of_eq t.isLt N_0

/-- The batch row under block row `p` of point `t`. -/
abbrev rowAt (t : Fin cfg0.N) (p : Fin 128) : Fin 16384 := ⟨t.val * 128 + p.val, by have := point_lt t; omega⟩

theorem xBlk_apply (c : Dev nD) (t : Fin cfg0.N) (p : Fin 128) (k : Fin 1024) :
    xBlk m c t (ix2 p k) = xArr m c (ix2 (rowAt t p) k) := by
  obtain ⟨⟨e0, e1⟩, -⟩ := idx_facts t
  show V m c main_arg0 (((cfg0.win 0).blk t).view.emb (ix2 p k)) = _
  rw [V_main_arg0]
  show xArr m c (((cfg0.win 0).blk t).view.emb (ix2 p k)) = xArr m c (ix2 (rowAt t p) k)
  congr 1; funext a; apply Fin.ext
  match a with
  | ⟨0, _⟩ => show win0_0.index t (0 : Fin 2) * 128 + 1 * p.val = t.val * 128 + p.val; omega
  | ⟨1, _⟩ => show win0_0.index t (1 : Fin 2) * 1024 + 1 * k.val = k.val; omega

theorem hBlk_apply (c : Dev nD) (t : Fin cfg0.N) (p : Fin 128) (k : Fin 1024) :
    hBlk m c t (ix2 p k) = hArr m c (ix2 (rowAt t p) k) := by
  obtain ⟨-, ⟨e0, e1⟩, -⟩ := idx_facts t
  show V m c main_arg1 (((cfg0.win 1).blk t).view.emb (ix2 p k)) = _
  rw [V_main_arg1]
  show hArr m c (((cfg0.win 1).blk t).view.emb (ix2 p k)) = hArr m c (ix2 (rowAt t p) k)
  congr 1; funext a; apply Fin.ext
  match a with
  | ⟨0, _⟩ => show win0_1.index t (0 : Fin 2) * 128 + 1 * p.val = t.val * 128 + p.val; omega
  | ⟨1, _⟩ => show win0_1.index t (1 : Fin 2) * 1024 + 1 * k.val = k.val; omega

theorem cBlk_apply (c : Dev nD) (t : Fin cfg0.N) (p : Fin 128) (k : Fin 1024) :
    cBlk m c t (ix2 p k) = cArr m c (ix2 (rowAt t p) k) := by
  obtain ⟨-, -, ⟨e0, e1⟩, -⟩ := idx_facts t
  show V m c main_arg2 (((cfg0.win 2).blk t).view.emb (ix2 p k)) = _
  rw [V_main_arg2]
  show cArr m c (((cfg0.win 2).blk t).view.emb (ix2 p k)) = cArr m c (ix2 (rowAt t p) k)
  congr 1; funext a; apply Fin.ext
  match a with
  | ⟨0, _⟩ => show win0_2.index t (0 : Fin 2) * 128 + 1 * p.val = t.val * 128 + p.val; omega
  | ⟨1, _⟩ => show win0_2.index t (1 : Fin 2) * 1024 + 1 * k.val = k.val; omega

theorem wBlk_apply (c : Dev nD) (t : Fin cfg0.N) (k : Fin 2048) (j : Fin 4096) :
    wBlk m c t (ix2 k j) = wgArr m c (ix2 k j) := by
  obtain ⟨-, -, -, ⟨e0, e1⟩, -⟩ := idx_facts t
  show (V m c main_v0 : S2048x4096.Idx → EReal) (((cfg0.win 3).blk t).view.emb (ix2 k j)) = _
  rw [wg_entry]
  congr 1; funext a; apply Fin.ext
  match a with
  | ⟨0, _⟩ => show win0_3.index t (0 : Fin 2) * 2048 + 1 * k.val = k.val; omega
  | ⟨1, _⟩ => show win0_3.index t (1 : Fin 2) * 4096 + 1 * j.val = j.val; omega

theorem bBlk_apply (c : Dev nD) (t : Fin cfg0.N) (j : Fin 4096) :
    bBlk m c t (ix2 (0 : Fin 1) j) = bgArr m c (ix1 j) := by
  obtain ⟨-, -, -, -, ⟨e0, e1⟩, -⟩ := idx_facts t
  refine Eq.trans ?_ (bg_entry m c j)
  show (V m c main_v2 : S1x4096.Idx → EReal) (((cfg0.win 4).blk t).view.emb (ix2 (0 : Fin 1) j)) = _
  congr 1; funext a; apply Fin.ext
  match a with
  | ⟨0, _⟩ => show win0_4.index t (0 : Fin 2) * 1 + 1 * 0 = 0; omega
  | ⟨1, _⟩ => show win0_4.index t (1 : Fin 2) * 4096 + 1 * j.val = j.val; omega

theorem woBlk_apply (c : Dev nD) (t : Fin cfg0.N) (k : Fin 1024) (j : Fin 1024) :
    woBlk m c t (ix2 k j) = woArr m c (ix2 k j) := by
  obtain ⟨-, -, -, -, -, ⟨e0, e1⟩, -⟩ := idx_facts t
  show (V m c main_v1 : S1024x1024.Idx → EReal) (((cfg0.win 5).blk t).view.emb (ix2 k j)) = _
  rw [wo_entry]
  congr 1; funext a; apply Fin.ext
  match a with
  | ⟨0, _⟩ => show win0_5.index t (0 : Fin 2) * 1024 + 1 * k.val = k.val; omega
  | ⟨1, _⟩ => show win0_5.index t (1 : Fin 2) * 1024 + 1 * j.val = j.val; omega

theorem boBlk_apply (c : Dev nD) (t : Fin cfg0.N) (j : Fin 1024) :
    boBlk m c t (ix2 (0 : Fin 1) j) = boArr m c (ix1 j) := by
  obtain ⟨-, -, -, -, -, -, ⟨e0, e1⟩, -⟩ := idx_facts t
  refine Eq.trans ?_ (bo_entry m c j)
  show (V m c main_v3 : S1x1024.Idx → EReal) (((cfg0.win 6).blk t).view.emb (ix2 (0 : Fin 1) j)) = _
  congr 1; funext a; apply Fin.ext
  match a with
  | ⟨0, _⟩ => show win0_6.index t (0 : Fin 2) * 1 + 1 * 0 = 0; omega
  | ⟨1, _⟩ => show win0_6.index t (1 : Fin 2) * 1024 + 1 * j.val = j.val; omega

/-! ## The whole-array functions at a row and a column -/

section AtIndex
variable (x h cc : (⟨2, ![16384, 1024]⟩ : Shape).Idx → EReal) (wg : (⟨2, ![2048, 4096]⟩ : Shape).Idx → EReal)
  (bg : (⟨1, ![4096]⟩ : Shape).Idx → EReal) (wout : (⟨2, ![1024, 1024]⟩ : Shape).Idx → EReal) (bout : (⟨1, ![1024]⟩ : Shape).Idx → EReal)

theorem idx_eq (r : Fin 16384) (q : Fin 1024) (i : (⟨2, ![16384, 1024]⟩ : Shape).Idx) (h0 : (i 0).val = r.val) (h1 : (i 1).val = q.val) :
    i = ix2 r q := by
  funext a; apply Fin.ext
  match a with
  | ⟨0, _⟩ => exact h0
  | ⟨1, _⟩ => exact h1

theorem cellOut_at (r : Fin 16384) (q : Fin 1024) (i : (⟨2, ![16384, 1024]⟩ : Shape).Idx) (h0 : (i 0).val = r.val) (h1 : (i 1).val = q.val) :
    cellOut x h cc wg bg i = cNew (mat wg) (vec bg) (row x r) (row h r) (row cc r) q := by
  rw [idx_eq r q i h0 h1]; rfl

theorem hiddenOut_at (r : Fin 16384) (q : Fin 1024) (i : (⟨2, ![16384, 1024]⟩ : Shape).Idx) (h0 : (i 0).val = r.val) (h1 : (i 1).val = q.val) :
    hiddenOut x h cc wg bg i = hNew (mat wg) (vec bg) (row x r) (row h r) (row cc r) q := by
  rw [idx_eq r q i h0 h1]; rfl

theorem logitsOut_at (r : Fin 16384) (q : Fin 1024) (i : (⟨2, ![16384, 1024]⟩ : Shape).Idx) (h0 : (i 0).val = r.val) (h1 : (i 1).val = q.val) :
    logitsOut x h cc wg bg wout bout i = logSoftmax (mat wg) (vec bg) (mat wout) (vec bout) (row x r) (row h r) (row cc r) q := by
  rw [idx_eq r q i h0 h1]; rfl

end AtIndex

/-! ## What a point writes back -/

section Point
variable (c : Dev nD) (t : Fin cfg0.N)

theorem xRow (p : Fin 128) : row (View.ld (xBlk m c t) r0_0) p = row (xArr m c) (rowAt t p) := by
  funext k
  show View.ld (xBlk m c t) r0_0 (ix2 p k) = xArr m c (ix2 (rowAt t p) k)
  rw [View.ld_unit_zero (S := S128x1024) hz]
  exact xBlk_apply m c t p k

theorem hRow (p : Fin 128) : row (View.ld (hBlk m c t) r0_0) p = row (hArr m c) (rowAt t p) := by
  funext k
  show View.ld (hBlk m c t) r0_0 (ix2 p k) = hArr m c (ix2 (rowAt t p) k)
  rw [View.ld_unit_zero (S := S128x1024) hz]
  exact hBlk_apply m c t p k

theorem cRow (p : Fin 128) : row (View.ld (cBlk m c t) r0_0) p = row (cArr m c) (rowAt t p) := by
  funext k
  show View.ld (cBlk m c t) r0_0 (ix2 p k) = cArr m c (ix2 (rowAt t p) k)
  rw [View.ld_unit_zero (S := S128x1024) hz]
  exact cBlk_apply m c t p k

theorem wMat : mat (wBlk m c t) = mat (wgArr m c) := funext fun k => funext fun j => wBlk_apply m c t k j

theorem bRow : oneRow (View.ld (bBlk m c t) r0_3) = vec (bgArr m c) := by
  funext j
  show View.ld (bBlk m c t) r0_3 (ix2 (0 : Fin 1) j) = bgArr m c (ix1 j)
  rw [View.ld_unit_zero (S := S1x4096) hz]
  exact bBlk_apply m c t j

theorem woMat : mat (woBlk m c t) = mat (woArr m c) := funext fun k => funext fun j => woBlk_apply m c t k j

theorem boRow : oneRow (boBlk m c t) = vec (boArr m c) := funext fun j => boBlk_apply m c t j

/-- The third result's block: the new cell state of the batch rows under the point. -/
theorem cell_point (y : S128x1024.Idx) :
    k0_pay3 (View.ld (xBlk m c t) r0_0) (View.ld (hBlk m c t) r0_0) (View.ld (wBlk m c t) r0_1) (View.ld (wBlk m c t) r0_2)
        (View.ld (bBlk m c t) r0_3) (View.ld (cBlk m c t) r0_0) y
      = cellOut (xArr m c) (hArr m c) (cArr m c) (wgArr m c) (bgArr m c) (((cfg0.win 9).blk t).view.emb y) := by
  obtain ⟨p, q, rfl⟩ : ∃ (p : Fin 128) (q : Fin 1024), y = ix2 p q := ⟨y 0, y 1, eq_ix2 y⟩
  obtain ⟨-, -, -, -, -, -, -, -, -, ⟨e0, e1⟩⟩ := idx_facts t
  refine (cNew_block (View.ld (xBlk m c t) r0_0) (View.ld (hBlk m c t) r0_0) (View.ld (cBlk m c t) r0_0) (wBlk m c t)
    (View.ld (bBlk m c t) r0_3) p q).trans ?_
  rw [wMat, bRow, xRow, hRow, cRow]
  exact (cellOut_at _ _ _ _ _ (rowAt t p) q _
    (by show win0_9.index t (0 : Fin 2) * 128 + 1 * p.val = t.val * 128 + p.val; omega)
    (by show win0_9.index t (1 : Fin 2) * 1024 + 1 * q.val = q.val; omega)).symm

/-- The second result's block: the new hidden state of those rows. -/
theorem hidden_point (y : S128x1024.Idx) :
    k0_pay4 (View.ld (xBlk m c t) r0_0) (View.ld (hBlk m c t) r0_0) (View.ld (wBlk m c t) r0_1) (View.ld (wBlk m c t) r0_2)
        (View.ld (bBlk m c t) r0_3) (View.ld (cBlk m c t) r0_0) y
      = hiddenOut (xArr m c) (hArr m c) (cArr m c) (wgArr m c) (bgArr m c) (((cfg0.win 8).blk t).view.emb y) := by
  obtain ⟨p, q, rfl⟩ : ∃ (p : Fin 128) (q : Fin 1024), y = ix2 p q := ⟨y 0, y 1, eq_ix2 y⟩
  obtain ⟨-, -, -, -, -, -, -, -, ⟨e0, e1⟩, -⟩ := idx_facts t
  refine (hNew_block (View.ld (xBlk m c t) r0_0) (View.ld (hBlk m c t) r0_0) (View.ld (cBlk m c t) r0_0) (wBlk m c t)
    (View.ld (bBlk m c t) r0_3) p q).trans ?_
  rw [wMat, bRow, xRow, hRow, cRow]
  exact (hiddenOut_at _ _ _ _ _ (rowAt t p) q _
    (by show win0_8.index t (0 : Fin 2) * 128 + 1 * p.val = t.val * 128 + p.val; omega)
    (by show win0_8.index t (1 : Fin 2) * 1024 + 1 * q.val = q.val; omega)).symm

/-- The first result's block: the log-softmax of those rows' logits. -/
theorem softmax_point (y : S128x1024.Idx) :
    k0_pay1 (k0_pay5 (View.ld (xBlk m c t) r0_0) (View.ld (hBlk m c t) r0_0) (View.ld (wBlk m c t) r0_1) (View.ld (wBlk m c t) r0_2)
        (View.ld (bBlk m c t) r0_3) (View.ld (cBlk m c t) r0_0) (View.ld (woBlk m c t) r0_4)) (View.ld (boBlk m c t) r0_5) y
      = logitsOut (xArr m c) (hArr m c) (cArr m c) (wgArr m c) (bgArr m c) (woArr m c) (boArr m c) (((cfg0.win 7).blk t).view.emb y) := by
  obtain ⟨p, q, rfl⟩ : ∃ (p : Fin 128) (q : Fin 1024), y = ix2 p q := ⟨y 0, y 1, eq_ix2 y⟩
  obtain ⟨-, -, -, -, -, -, -, ⟨e0, e1⟩, -⟩ := idx_facts t
  refine (logSoftmax_block (View.ld (xBlk m c t) r0_0) (View.ld (hBlk m c t) r0_0) (View.ld (cBlk m c t) r0_0) (wBlk m c t)
    (View.ld (bBlk m c t) r0_3) (woBlk m c t) (boBlk m c t) p q).trans ?_
  rw [wMat, bRow, woMat, boRow, xRow, hRow, cRow]
  exact (logitsOut_at _ _ _ _ _ _ _ (rowAt t p) q _
    (by show win0_7.index t (0 : Fin 2) * 128 + 1 * p.val = t.val * 128 + p.val; omega)
    (by show win0_7.index t (1 : Fin 2) * 1024 + 1 * q.val = q.val; omega)).symm

end Point

/-- What point `t` writes back to the first result is its block of the batch's log-softmax. -/
theorem flushed7_eq (c : Dev nD) (t : Fin cfg0.N) :
    (dats m 0 c).flushed 7 t = ((cfg0.win 7).blk t).view.read (Elt Ideal)
      (logitsOut (xArr m c) (hArr m c) (cArr m c) (wgArr m c) (bgArr m c) (woArr m c) (boArr m c)) := by
  rw [Value.flushed7]
  unfold out0_7
  rw [View.canon_unit_zero hz]
  funext y
  exact softmax_point m c t y

/-- To the second, its block of the new hidden state. -/
theorem flushed8_eq (c : Dev nD) (t : Fin cfg0.N) :
    (dats m 0 c).flushed 8 t = ((cfg0.win 8).blk t).view.read (Elt Ideal)
      (hiddenOut (xArr m c) (hArr m c) (cArr m c) (wgArr m c) (bgArr m c)) := by
  rw [Value.flushed8]
  unfold out0_8
  rw [View.canon_unit_zero hz]
  funext y
  exact hidden_point m c t y

/-- To the third, its block of the new cell state. -/
theorem flushed9_eq (c : Dev nD) (t : Fin cfg0.N) :
    (dats m 0 c).flushed 9 t = ((cfg0.win 9).blk t).view.read (Elt Ideal)
      (cellOut (xArr m c) (hArr m c) (cArr m c) (wgArr m c) (bgArr m c)) := by
  rw [Value.flushed9]
  unfold out0_9
  rw [View.canon_unit_zero hz]
  funext y
  exact cell_point m c t y

/-! ## The blocks tile the arrays -/

theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v4_0).slice (win0_7.rect t)).set ↔ _
  rw [View.set_slice_whole, Rect.mem_set_unit]
  exact Iff.rfl

theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v4_1).slice (win0_8.rect t)).set ↔ _
  rw [View.set_slice_whole, Rect.mem_set_unit]
  exact Iff.rfl

theorem mem_blk9 (t : Fin cfg0.N) (i : S16384x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v4_2).slice (win0_9.rect t)).set ↔ _
  rw [View.set_slice_whole, Rect.mem_set_unit]
  exact Iff.rfl

/-- The point whose block holds batch row `r`: `r / 128`. -/
abbrev pointOf (i : S16384x1024.Idx) : Fin cfg0.N :=
  ⟨(i 0).val / 128, by have := N_0; have hi : (i 0).val < 16384 := (i 0).isLt; show (i 0).val / 128 < grid0.N; omega⟩

theorem cover7 (i : S16384x1024.Idx) : ∃ t : Fin cfg0.N, (cfg0.win 7).flush t = true ∧ i ∈ ((cfg0.win 7).blk t).view.set := by
  have hi1 : (i 1).val < 1024 := (i 1).isLt
  obtain ⟨-, -, -, -, -, -, -, ⟨e0, e1⟩, -⟩ := idx_facts (pointOf i)
  have ht : (pointOf i).val = (i 0).val / 128 := rfl
  refine ⟨pointOf i, flush0_7 _, ?_⟩
  rw [mem_blk7]
  intro a
  match a with
  | ⟨0, _⟩ => show win0_7.index (pointOf i) (0 : Fin 2) * 128 ≤ (i 0).val ∧ (i 0).val < win0_7.index (pointOf i) (0 : Fin 2) * 128 + 128; omega
  | ⟨1, _⟩ => show win0_7.index (pointOf i) (1 : Fin 2) * 1024 ≤ (i 1).val ∧ (i 1).val < win0_7.index (pointOf i) (1 : Fin 2) * 1024 + 1024; omega

theorem cover8 (i : S16384x1024.Idx) : ∃ t : Fin cfg0.N, (cfg0.win 8).flush t = true ∧ i ∈ ((cfg0.win 8).blk t).view.set := by
  have hi1 : (i 1).val < 1024 := (i 1).isLt
  obtain ⟨-, -, -, -, -, -, -, -, ⟨e0, e1⟩, -⟩ := idx_facts (pointOf i)
  have ht : (pointOf i).val = (i 0).val / 128 := rfl
  refine ⟨pointOf i, flush0_8 _, ?_⟩
  rw [mem_blk8]
  intro a
  match a with
  | ⟨0, _⟩ => show win0_8.index (pointOf i) (0 : Fin 2) * 128 ≤ (i 0).val ∧ (i 0).val < win0_8.index (pointOf i) (0 : Fin 2) * 128 + 128; omega
  | ⟨1, _⟩ => show win0_8.index (pointOf i) (1 : Fin 2) * 1024 ≤ (i 1).val ∧ (i 1).val < win0_8.index (pointOf i) (1 : Fin 2) * 1024 + 1024; omega

theorem cover9 (i : S16384x1024.Idx) : ∃ t : Fin cfg0.N, (cfg0.win 9).flush t = true ∧ i ∈ ((cfg0.win 9).blk t).view.set := by
  have hi1 : (i 1).val < 1024 := (i 1).isLt
  obtain ⟨-, -, -, -, -, -, -, -, -, ⟨e0, e1⟩⟩ := idx_facts (pointOf i)
  have ht : (pointOf i).val = (i 0).val / 128 := rfl
  refine ⟨pointOf i, flush0_9 _, ?_⟩
  rw [mem_blk9]
  intro a
  match a with
  | ⟨0, _⟩ => show win0_9.index (pointOf i) (0 : Fin 2) * 128 ≤ (i 0).val ∧ (i 0).val < win0_9.index (pointOf i) (0 : Fin 2) * 128 + 128; omega
  | ⟨1, _⟩ => show win0_9.index (pointOf i) (1 : Fin 2) * 1024 ≤ (i 1).val ∧ (i 1).val < win0_9.index (pointOf i) (1 : Fin 2) * 1024 + 1024; omega

/-! ## The arrays after the run -/

theorem final7 (c : Dev nD) : (dats m 0 c).arrAt 7 cfg0.N
    = logitsOut (xArr m c) (hArr m c) (cArr m c) (wgArr m c) (bgArr m c) (woArr m c) (boArr m c) :=
  (dats m 0 c).arrAt_eq_of_cover 7 _ (fun t _ => flushed7_eq m c t) cover7

theorem final8 (c : Dev nD) : (dats m 0 c).arrAt 8 cfg0.N
    = hiddenOut (xArr m c) (hArr m c) (cArr m c) (wgArr m c) (bgArr m c) :=
  (dats m 0 c).arrAt_eq_of_cover 8 _ (fun t _ => flushed8_eq m c t) cover8

theorem final9 (c : Dev nD) : (dats m 0 c).arrAt 9 cfg0.N
    = cellOut (xArr m c) (hArr m c) (cArr m c) (wgArr m c) (bgArr m c) :=
  (dats m 0 c).arrAt_eq_of_cover 9 _ (fun t _ => flushed9_eq m c t) cover9

/-- The kernel's run: the three results at their whole-array functions of the arguments, the arguments unchanged. -/
theorem run : θ_run defs (onTc (τ := τ) (main (F := Ideal))) ⟨m, fun _ => 0, ρ⟩ fun r => ∀ c : Dev nD,
      r.2.mem ((c : Thread nD τ).loc main_v4_0) = logitsOut (xArr m c) (hArr m c) (cArr m c) (wgArr m c) (bgArr m c) (woArr m c) (boArr m c)
      ∧ r.2.mem ((c : Thread nD τ).loc main_v4_1) = hiddenOut (xArr m c) (hArr m c) (cArr m c) (wgArr m c) (bgArr m c)
      ∧ r.2.mem ((c : Thread nD τ).loc main_v4_2) = cellOut (xArr m c) (hArr m c) (cArr m c) (wgArr m c) (bgArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2.1.trans (final9 m c), (h c).2.2.2⟩)
    (Value.run_blocks m ρ)

end Cert.KernelIdeal.Arrays

end
-- ==== Proof.RefStages.lean ====
/-
  The reference's run, read back in two stretches.

  The reference's 58 host operations are the 43 that compute the gates, the new cell state, the new hidden state and the
  logits, followed by the 15 of the row-wise log-softmax. Running the whole list from a valuation is running the second
  stretch from what the first leaves. Over ANY valuation the first stretch leaves the new cell state, the new hidden state
  and the logits at their composed stages of the seven arguments; over any valuation that holds the logits' stage, the second
  stretch leaves the log-softmax's stage and touches nothing the first one returned. So every weakly fair execution ends with
  the three results at their stages of the launch contents and the arguments unchanged.
-/
import proofs.«118563_j22677427323268_1_alg».proof.Proof.RefRead
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations up to the logits. -/
abbrev cellOps : List (HloOp τ sig (Elt F)) := (ops (F := F)).take 43
/-- The operations of the log-softmax. -/
abbrev softmaxOps : List (HloOp τ sig (Elt F)) := (ops (F := F)).drop 43

theorem ops_split : (ops : List (HloOp τ sig (Elt F))) = cellOps ++ softmaxOps := (List.take_append_drop 43 _).symm

section First
variable (V : Valuation τ sig (Elt F))

set_option maxRecDepth 8192 in
set_option maxHeartbeats 2000000 in
/-- The first stretch leaves the new cell state at its stage of the arguments. -/
theorem first_cell : after cellOps V (Proc.devRef .tc main_v30)
    = val_main_v30 (F := F) (V (Proc.devRef .tc main_arg0)) (V (Proc.devRef .tc main_arg1)) (V (Proc.devRef .tc main_arg2)) (V (Proc.devRef .tc main_arg3)) (V (Proc.devRef .tc main_arg4)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) V _ = _
  after_results_simp <;> rfl

set_option maxRecDepth 8192 in
set_option maxHeartbeats 2000000 in
/-- The first stretch leaves the new hidden state at its stage of the arguments. -/
theorem first_hidden : after cellOps V (Proc.devRef .tc main_v32)
    = val_main_v32 (F := F) (V (Proc.devRef .tc main_arg0)) (V (Proc.devRef .tc main_arg1)) (V (Proc.devRef .tc main_arg2)) (V (Proc.devRef .tc main_arg3)) (V (Proc.devRef .tc main_arg4)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) V _ = _
  after_results_simp <;> rfl

set_option maxRecDepth 8192 in
set_option maxHeartbeats 2000000 in
/-- The first stretch leaves the logits at their stage of the arguments. -/
theorem first_logits : after cellOps V (Proc.devRef .tc main_v36)
    = val_main_v36 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  show after (_ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: _ :: []) V _ = _
  after_results_simp <;> rfl

end First

section Second
variable (W : Valuation τ sig (Elt F))

set_option maxRecDepth 8192 in
set_option maxHeartbeats 2000000 in
/-- Over a valuation that holds the logits' stage, the second stretch leaves the log-softmax's stage. -/
theorem second_softmax (a0 a1 a2 : (⟨S16384x1024, .f32⟩ : BufTy).Contents (Elt F)) (a3 : (⟨S2048x4096, .f32⟩ : BufTy).Contents (Elt F))
    (a4 : (⟨S4096, .f32⟩ : BufTy).Contents (Elt F)) (a5 : (⟨S1024x1024, .f32⟩ : BufTy).Contents (Elt F)) (a6 : (⟨S1024, .f32⟩ : BufTy).Contents (Elt F))
    (h36 : W (Proc.devRef .tc main_v36) = val_main_v36 (F := F) a0 a1 a2 a3 a4 a5 a6) :
    after softmaxOps W (Proc.devRef .tc main_v37) = val_main_v37 (F := F) a0 a1 a2 a3 a4 a5 a6 := by
  show after (_ :: _ :: _ :: _ :: _ :: _ :: _ :: _ :: _ :: _ :: _ :: _ :: _ :: _ :: _ :: []) W _ = _
  after_results_simp
  simp only [TRef.ofBuf, TRef.toBuf, cast_eq, h36]
  rfl

set_option maxRecDepth 8192 in
/-- The second stretch writes none of the buffers the first returned, nor an argument. -/
theorem second_keeps (b : Ref sig .tc) (hb : b = main_v32 ∨ b = main_v30 ∨ b = main_arg0 ∨ b = main_arg1 ∨ b = main_arg2 ∨ b = main_arg3
      ∨ b = main_arg4 ∨ b = main_arg5 ∨ b = main_arg6) :
    after softmaxOps W (Proc.devRef .tc b) = W (Proc.devRef .tc b) := by
  show after (_ :: _ :: _ :: _ :: _ :: _ :: _ :: _ :: _ :: _ :: _ :: _ :: _ :: _ :: _ :: []) W _ = _
  rcases hb with rfl | rfl | rfl | rfl | rfl | rfl | rfl | rfl | rfl <;> (after_results_simp <;> rfl)

end Second

section Whole
variable (M : Valuation τ sig (Elt F))

/-- The whole list leaves the log-softmax's stage of the arguments in the first result, -/
theorem whole_softmax : after ops M (Proc.devRef .tc main_v37) = val_main_v37 (F := F) (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6)) := by
  rw [ops_split, StableHlo.after_append]
  exact second_softmax _ _ _ _ _ _ _ _ (first_logits M)

/-- the new hidden state's in the second, -/
theorem whole_hidden : after ops M (Proc.devRef .tc main_v32) = val_main_v32 (F := F) (M (Proc.devRef .tc main_arg0)) (M (Proc.devRef .tc main_arg1)) (M (Proc.devRef .tc main_arg2)) (M (Proc.devRef .tc main_arg3)) (M (Proc.devRef .tc main_arg4)) := by
  rw [ops_split, StableHlo.after_append, second_keeps _ main_v32 (Or.inl rfl)]
  exact first_hidden M

/-- the new cell state's in the third. -/
theorem whole_cell : after ops M (Proc.devRef .tc main_v30) = val_main_v30 (F := F) (M (Proc.devRef .tc main_arg0)) (M (Proc.devRef .tc main_arg1)) (M (Proc.devRef .tc main_arg2)) (M (Proc.devRef .tc main_arg3)) (M (Proc.devRef .tc main_arg4)) := by
  rw [ops_split, StableHlo.after_append, second_keeps _ main_v30 (Or.inr (Or.inl rfl))]
  exact first_cell M

set_option maxRecDepth 8192 in
set_option maxHeartbeats 2000000 in
/-- No operation writes an argument. -/
theorem whole_args (b : Ref sig .tc) (hb : b = main_arg0 ∨ b = main_arg1 ∨ b = main_arg2 ∨ b = main_arg3 ∨ b = main_arg4 ∨ b = main_arg5 ∨ b = main_arg6) :
    after ops M (Proc.devRef .tc b) = M (Proc.devRef .tc b) := by
  rcases hb with rfl | rfl | rfl | rfl | rfl | rfl | rfl <;> (after_results_simp <;> rfl)

end Whole

/-- On every device, from any memory with zero counters: every weakly fair execution of the reference's @main terminates
    with the three results at their stages of the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = val_main_v37 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v37).trans (whole_softmax _), (h c main_v32).trans (whole_hidden _), (h c main_v30).trans (whole_cell _),
      (h c main_arg0).trans (whole_args _ _ (Or.inl rfl)),
      (h c main_arg1).trans (whole_args _ _ (Or.inr (Or.inl rfl))),
      (h c main_arg2).trans (whole_args _ _ (Or.inr (Or.inr (Or.inl rfl)))),
      (h c main_arg3).trans (whole_args _ _ (Or.inr (Or.inr (Or.inr (Or.inl rfl))))),
      (h c main_arg4).trans (whole_args _ _ (Or.inr (Or.inr (Or.inr (Or.inr (Or.inl rfl)))))),
      (h c main_arg5).trans (whole_args _ _ (Or.inr (Or.inr (Or.inr (Or.inr (Or.inr (Or.inl rfl))))))),
      (h c main_arg6).trans (whole_args _ _ (Or.inr (Or.inr (Or.inr (Or.inr (Or.inr (Or.inr rfl)))))))⟩)
    (ValueP.run m ρ)

end Cert.ReferenceIdeal.Stages

end
-- ==== Proof.RefValue.lean ====
/-
  The reference's three results, read one host operation at a time, are the row-wise cell functions of the
  specification.

  The reference forms the gate pre-activations as ONE product of the concatenation [x | h] (2048 columns) with the
  packed gate weights, plus the bias broadcast over the rows. At (r, j) that is a sum over 2048 indices; its first 1024
  terms read x and its last 1024 read h, which is the specification's two sums. The four gates are the column slices at
  offsets 0, 1024, 2048, 3072; the sigmoid is printed as 1 / (1 + exp (−g)) with the word of the real one, which is
  the logistic function by definition. The projection is a sum over the hidden index plus the bias. The log-softmax
  takes each row's maximum folded from minus infinity, takes the maximum with minus infinity once more (which changes
  nothing, the fold having started there), subtracts, sums the exponentials from zero, takes the logarithm and
  subtracts again. No step needs finiteness.
-/
import proofs.«118563_j22677427323268_1_alg».proof.Proof.RefRead
import proofs.«118563_j22677427323268_1_alg».proof.Proof.Cell
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.ValueIdx Cert.Cell

/-! ## Index equations: the stage lemmas' composed indices are (row, column) pairs -/

theorem lidx_v1 (r : Fin 16384) (j : Fin 4096) (k : Fin 2048) : lidx_main_v1 (ix2 r j) k = ix2 r k :=
  funext fun a => Fin.ext (by match a with | ⟨0, _⟩ => rfl | ⟨1, _⟩ => rfl)

theorem ridx_v1 (r : Fin 16384) (j : Fin 4096) (k : Fin 2048) : ridx_main_v1 (ix2 r j) k = ix2 k j :=
  funext fun a => Fin.ext (by match a with | ⟨0, _⟩ => rfl | ⟨1, _⟩ => rfl)

theorem idx_bias (r : Fin 16384) (j : Fin 4096) : idx_main_v2 (idx_main_v3 (ix2 r j)) = ix1 j :=
  funext fun a => Fin.ext (by match a with | ⟨0, _⟩ => rfl)

theorem idx_v5 (r : Fin 16384) (q : Fin 1024) : idx_main_v5 (ix2 r q) = ix2 r (colF q) :=
  funext fun a => Fin.ext (by match a with | ⟨0, _⟩ => rfl | ⟨1, _⟩ => rfl)

theorem idx_v6 (r : Fin 16384) (q : Fin 1024) : idx_main_v6 (ix2 r q) = ix2 r (colI q) :=
  funext fun a => Fin.ext (by match a with | ⟨0, _⟩ => rfl | ⟨1, _⟩ => exact Nat.add_comm 1024 q.val)

theorem idx_v7 (r : Fin 16384) (q : Fin 1024) : idx_main_v7 (ix2 r q) = ix2 r (colU q) :=
  funext fun a => Fin.ext (by match a with | ⟨0, _⟩ => rfl | ⟨1, _⟩ => exact Nat.add_comm 2048 q.val)

theorem idx_v8 (r : Fin 16384) (q : Fin 1024) : idx_main_v8 (ix2 r q) = ix2 r (colO q) :=
  funext fun a => Fin.ext (by match a with | ⟨0, _⟩ => rfl | ⟨1, _⟩ => exact Nat.add_comm 3072 q.val)

/-! ## The concatenation [x | h] at a column of its first and of its second half -/

section
variable (a0 a1 a2 : (⟨S16384x1024, .f32⟩ : BufTy).Contents (Elt Ideal)) (a3 : (⟨S2048x4096, .f32⟩ : BufTy).Contents (Elt Ideal))
  (a4 : (⟨S4096, .f32⟩ : BufTy).Contents (Elt Ideal)) (a5 : (⟨S1024x1024, .f32⟩ : BufTy).Contents (Elt Ideal))
  (a6 : (⟨S1024, .f32⟩ : BufTy).Contents (Elt Ideal))

/-- A column among the first 1024 reads x. -/
theorem cat_upper (r : Fin 16384) (k : Fin 1024) :
    val_main_v0 (F := Ideal) a0 a1 (ix2 r (upper k)) = a0 (ix2 r k) := by
  unfold val_main_v0
  exact concatenate_pair_apply_left (1 : Fin 2) a0 a1 concatenates_S16384x1024_S16384x1024_S16384x2048_d1
    (ix2 r (upper k)) rfl (ix2 r k) (fun b => match b with | ⟨0, _⟩ => rfl | ⟨1, _⟩ => rfl)

/-- A column among the last 1024 reads h, 1024 columns to the left. -/
theorem cat_lower (r : Fin 16384) (k : Fin 1024) :
    val_main_v0 (F := Ideal) a0 a1 (ix2 r (lower k)) = a1 (ix2 r k) := by
  unfold val_main_v0
  exact concatenate_pair_apply_right (1 : Fin 2) a0 a1 concatenates_S16384x1024_S16384x1024_S16384x2048_d1
    (ix2 r (lower k)) rfl rfl (ix2 r k)
    (fun b hb => match b, hb with | ⟨0, _⟩, _ => rfl | ⟨1, _⟩, hb => absurd rfl hb)
    rfl

/-! ## The gate pre-activations -/

/-- The gate pre-activation of batch row `r` at gate column `j`: the one sum over 2048 indices, cut in its halves. -/
theorem gate_apply (r : Fin 16384) (j : Fin 4096) :
    val_main_v4 (F := Ideal) a0 a1 a3 a4 (ix2 r j) = gate (mat a3) (vec a4) (row a0 r) (row a1 r) j := by
  rw [val_main_v4_apply, val_main_v1_apply, val_main_v3_apply, val_main_v2_apply, idx_bias]
  unfold gate
  refine congrArg (· + a4 (ix1 j)) ?_
  refine (sum_halves _).trans ?_
  refine congrArg₂ (· + ·) (Finset.sum_congr rfl fun k _ => ?_) (Finset.sum_congr rfl fun k _ => ?_)
  · rw [lidx_v1, ridx_v1, cat_upper]
  · rw [lidx_v1, ridx_v1, cat_lower]

end

/-! ## The sigmoid as printed, and the new cell and hidden states -/

/-- One over one plus the exponential of the negation, the ones given by the word of the real one, is the logistic
    function. -/
theorem sigmoid_eq (g : EReal) :
    Ideal.div (Ideal.ofBits .f32 0x3F800000#32) (Ideal.ofBits .f32 0x3F800000#32 + Ideal.exp (-g)) = Ideal.logistic g := by
  rw [Ideal.ofBits_one_f32]
  rfl

section
variable (a0 a1 a2 : (⟨S16384x1024, .f32⟩ : BufTy).Contents (Elt Ideal)) (a3 : (⟨S2048x4096, .f32⟩ : BufTy).Contents (Elt Ideal))
  (a4 : (⟨S4096, .f32⟩ : BufTy).Contents (Elt Ideal))

/-- The forget gate's sigmoid. -/
theorem forget_apply (r : Fin 16384) (q : Fin 1024) :
    val_main_v14 (F := Ideal) a0 a1 a3 a4 (ix2 r q) = Ideal.logistic (gate (mat a3) (vec a4) (row a0 r) (row a1 r) (colF q)) := by
  rw [val_main_v14_apply, val_main_v13_apply, val_main_cst_0_apply, val_main_v12_apply, val_main_v11_apply,
    val_main_cst_apply, val_main_v10_apply, val_main_v9_apply, val_main_v5_apply, idx_v5, gate_apply]
  exact sigmoid_eq _

/-- The input gate's sigmoid. -/
theorem input_apply (r : Fin 16384) (q : Fin 1024) :
    val_main_v20 (F := Ideal) a0 a1 a3 a4 (ix2 r q) = Ideal.logistic (gate (mat a3) (vec a4) (row a0 r) (row a1 r) (colI q)) := by
  rw [val_main_v20_apply, val_main_v19_apply, val_main_cst_2_apply, val_main_v18_apply, val_main_v17_apply,
    val_main_cst_1_apply, val_main_v16_apply, val_main_v15_apply, val_main_v6_apply, idx_v6, gate_apply]
  exact sigmoid_eq _

/-- The update gate's hyperbolic tangent. -/
theorem update_apply (r : Fin 16384) (q : Fin 1024) :
    val_main_v21 (F := Ideal) a0 a1 a3 a4 (ix2 r q) = Ideal.tanh (gate (mat a3) (vec a4) (row a0 r) (row a1 r) (colU q)) := by
  rw [val_main_v21_apply, val_main_v7_apply, idx_v7, gate_apply]
  rfl

/-- The output gate's sigmoid. -/
theorem output_apply (r : Fin 16384) (q : Fin 1024) :
    val_main_v27 (F := Ideal) a0 a1 a3 a4 (ix2 r q) = Ideal.logistic (gate (mat a3) (vec a4) (row a0 r) (row a1 r) (colO q)) := by
  rw [val_main_v27_apply, val_main_v26_apply, val_main_cst_4_apply, val_main_v25_apply, val_main_v24_apply,
    val_main_cst_3_apply, val_main_v23_apply, val_main_v22_apply, val_main_v8_apply, idx_v8, gate_apply]
  exact sigmoid_eq _

/-- The new cell state of batch row `r` at `q`. -/
theorem cell_apply (r : Fin 16384) (q : Fin 1024) :
    val_main_v30 (F := Ideal) a0 a1 a2 a3 a4 (ix2 r q)
      = cNew (mat a3) (vec a4) (row a0 r) (row a1 r) (row a2 r) q := by
  rw [val_main_v30_apply, val_main_v28_apply, val_main_v29_apply, forget_apply, input_apply, update_apply]
  rfl

/-- The new hidden state of batch row `r` at `q`. -/
theorem hidden_apply (r : Fin 16384) (q : Fin 1024) :
    val_main_v32 (F := Ideal) a0 a1 a2 a3 a4 (ix2 r q)
      = hNew (mat a3) (vec a4) (row a0 r) (row a1 r) (row a2 r) q := by
  rw [val_main_v32_apply, val_main_v31_apply, output_apply, cell_apply]
  rfl

end

/-! ## The projection and the row-wise log-softmax -/

theorem lidx_v33 (r : Fin 16384) (j k : Fin 1024) : lidx_main_v33 (ix2 r j) k = ix2 r k :=
  funext fun a => Fin.ext (by match a with | ⟨0, _⟩ => rfl | ⟨1, _⟩ => rfl)

theorem ridx_v33 (r : Fin 16384) (j k : Fin 1024) : ridx_main_v33 (ix2 r j) k = ix2 k j :=
  funext fun a => Fin.ext (by match a with | ⟨0, _⟩ => rfl | ⟨1, _⟩ => rfl)

theorem idx_obias (r : Fin 16384) (j : Fin 1024) : idx_main_v34 (idx_main_v35 (ix2 r j)) = ix1 j :=
  funext fun a => Fin.ext (by match a with | ⟨0, _⟩ => rfl)

/-- A row's value kept as a column and broadcast back over the row is read at the row. -/
theorem idx_col_max (r : Fin 16384) (j : Fin 1024) : idx_main_call0_v3 (idx_main_call0_v4 (ix2 r j)) = ix1 r :=
  funext fun a => Fin.ext (by match a with | ⟨0, _⟩ => rfl)

theorem idx_col_sum (r : Fin 16384) (j : Fin 1024) : idx_main_call0_v8 (idx_main_call0_v10 (ix2 r j)) = ix1 r :=
  funext fun a => Fin.ext (by match a with | ⟨0, _⟩ => rfl)

theorem idx_row_sum (r : Fin 16384) (k : Fin 1024) : idx_main_call0_v7 (ix1 r) k = ix2 r k :=
  funext fun a => Fin.ext (by match a with | ⟨0, _⟩ => rfl | ⟨1, _⟩ => rfl)

/-- A reduced row index with the column put back is (row, column). -/
theorem lift_row (h : S16384x1024.Reduces [1] S16384) (r : Fin 16384) (k : Fin (S16384x1024.size 1)) :
    h.lift (ix1 r) k = ix2 r (⟨k.val, k.isLt⟩ : Fin 1024) := by
  funext c; apply Fin.ext
  fin_cases c <;> rfl

section
variable (a0 a1 a2 : (⟨S16384x1024, .f32⟩ : BufTy).Contents (Elt Ideal)) (a3 : (⟨S2048x4096, .f32⟩ : BufTy).Contents (Elt Ideal))
  (a4 : (⟨S4096, .f32⟩ : BufTy).Contents (Elt Ideal)) (a5 : (⟨S1024x1024, .f32⟩ : BufTy).Contents (Elt Ideal))
  (a6 : (⟨S1024, .f32⟩ : BufTy).Contents (Elt Ideal))

/-- The logit of batch row `r` at `j`. -/
theorem logit_apply (r : Fin 16384) (j : Fin 1024) :
    val_main_v36 (F := Ideal) a0 a1 a2 a3 a4 a5 a6 (ix2 r j)
      = logit (mat a3) (vec a4) (mat a5) (vec a6) (row a0 r) (row a1 r) (row a2 r) j := by
  rw [val_main_v36_apply, val_main_v33_apply, val_main_v35_apply, val_main_v34_apply, idx_obias]
  unfold logit
  refine congrArg (· + a6 (ix1 j)) (Finset.sum_congr rfl fun k _ => ?_)
  rw [lidx_v33, ridx_v33, hidden_apply]

/-- The host's maximum along a row, folded from the pattern of minus infinity, is the row's largest logit. -/
theorem hostMax_apply (r : Fin 16384) :
    val_main_call0_v0 (F := Ideal) a0 a1 a2 a3 a4 a5 a6 (ix1 r)
      = rowMax (mat a3) (vec a4) (mat a5) (vec a6) (row a0 r) (row a1 r) (row a2 r) := by
  unfold val_main_call0_v0
  have h : S16384x1024.Reduces [1] S16384 := by decide
  refine (Host.reduce_eq_fold_single (α := Ideal .f32) (s := S16384x1024) (t := S16384) (a := 1) (u := S_)
    (FloatOps.maximumf (F := Ideal) (φ := .f32)) (val_main_v36 (F := Ideal) a0 a1 a2 a3 a4 a5 a6 : FVec Ideal S16384x1024 .f32)
    (val_main_call0_cst (F := Ideal) : FVec Ideal S_ .f32) reducesTo_S16384x1024_S16384_d1 h h_S_ (ix1 r)).trans ?_
  unfold rowMax
  refine congrArg (fun f => Finset.fold max (Ideal.ofBits .f32 0xFF800000#32) f (Finset.univ : Finset (Fin 1024))) ?_
  funext k
  show val_main_v36 (F := Ideal) a0 a1 a2 a3 a4 a5 a6 (h.lift (ix1 r) k) = _
  rw [lift_row]
  exact logit_apply a0 a1 a2 a3 a4 a5 a6 r _

/-- Taking the maximum with minus infinity once more changes nothing. -/
theorem max_apply (r : Fin 16384) :
    val_main_call0_v2 (F := Ideal) a0 a1 a2 a3 a4 a5 a6 (ix1 r)
      = rowMax (mat a3) (vec a4) (mat a5) (vec a6) (row a0 r) (row a1 r) (row a2 r) := by
  rw [val_main_call0_v2_apply, val_main_call0_v1_apply, val_main_call0_cst_0_apply, hostMax_apply]
  unfold rowMax
  exact max_start_fold _ _ _

/-- A logit less its row's largest. -/
theorem shifted_apply (r : Fin 16384) (j : Fin 1024) :
    val_main_call0_v5 (F := Ideal) a0 a1 a2 a3 a4 a5 a6 (ix2 r j)
      = shifted (mat a3) (vec a4) (mat a5) (vec a6) (row a0 r) (row a1 r) (row a2 r) j := by
  rw [val_main_call0_v5_apply, val_main_call0_v4_apply, val_main_call0_v3_apply, idx_col_max, max_apply, logit_apply]
  rfl

/-- The row's sum of the exponentials of the shifted logits, summed from zero. -/
theorem sum_apply (r : Fin 16384) :
    val_main_call0_v7 (F := Ideal) a0 a1 a2 a3 a4 a5 a6 (ix1 r)
      = ∑ j : Fin 1024, Ideal.exp (shifted (mat a3) (vec a4) (mat a5) (vec a6) (row a0 r) (row a1 r) (row a2 r) j) := by
  rw [val_main_call0_v7_apply, val_main_call0_cst_1_apply]
  refine (congrArg (· + _) Ideal.ofBits_zero_f32).trans ((zero_add _).trans ?_)
  refine Finset.sum_congr rfl fun k _ => ?_
  rw [idx_row_sum, val_main_call0_v6_apply, shifted_apply]
  rfl

/-- The log-softmax of batch row `r` at `j`. -/
theorem logSoftmax_apply (r : Fin 16384) (j : Fin 1024) :
    val_main_v37 (F := Ideal) a0 a1 a2 a3 a4 a5 a6 (ix2 r j)
      = logSoftmax (mat a3) (vec a4) (mat a5) (vec a6) (row a0 r) (row a1 r) (row a2 r) j := by
  rw [val_main_v37_apply, val_main_call0_v10_apply, val_main_call0_v9_apply, val_main_call0_v8_apply, idx_col_sum,
    sum_apply, shifted_apply]
  rfl

end

/-! ## The three results over the whole batch -/

theorem cell_eq (a0 a1 a2 : (⟨S16384x1024, .f32⟩ : BufTy).Contents (Elt Ideal)) (a3 : (⟨S2048x4096, .f32⟩ : BufTy).Contents (Elt Ideal))
    (a4 : (⟨S4096, .f32⟩ : BufTy).Contents (Elt Ideal)) :
    val_main_v30 (F := Ideal) a0 a1 a2 a3 a4 = Cert.Cell.cellOut a0 a1 a2 a3 a4 := by
  funext i
  obtain ⟨r, q, rfl⟩ : ∃ (r : Fin 16384) (q : Fin 1024), i = ix2 r q := ⟨i 0, i 1, eq_ix2 i⟩
  exact cell_apply a0 a1 a2 a3 a4 r q

theorem hidden_eq (a0 a1 a2 : (⟨S16384x1024, .f32⟩ : BufTy).Contents (Elt Ideal)) (a3 : (⟨S2048x4096, .f32⟩ : BufTy).Contents (Elt Ideal))
    (a4 : (⟨S4096, .f32⟩ : BufTy).Contents (Elt Ideal)) :
    val_main_v32 (F := Ideal) a0 a1 a2 a3 a4 = Cert.Cell.hiddenOut a0 a1 a2 a3 a4 := by
  funext i
  obtain ⟨r, q, rfl⟩ : ∃ (r : Fin 16384) (q : Fin 1024), i = ix2 r q := ⟨i 0, i 1, eq_ix2 i⟩
  exact hidden_apply a0 a1 a2 a3 a4 r q

theorem logits_eq (a0 a1 a2 : (⟨S16384x1024, .f32⟩ : BufTy).Contents (Elt Ideal)) (a3 : (⟨S2048x4096, .f32⟩ : BufTy).Contents (Elt Ideal))
    (a4 : (⟨S4096, .f32⟩ : BufTy).Contents (Elt Ideal)) (a5 : (⟨S1024x1024, .f32⟩ : BufTy).Contents (Elt Ideal))
    (a6 : (⟨S1024, .f32⟩ : BufTy).Contents (Elt Ideal)) :
    val_main_v37 (F := Ideal) a0 a1 a2 a3 a4 a5 a6 = Cert.Cell.logitsOut a0 a1 a2 a3 a4 a5 a6 := by
  funext i
  obtain ⟨r, q, rfl⟩ : ∃ (r : Fin 16384) (q : Fin 1024), i = ix2 r q := ⟨i 0, i 1, eq_ix2 i⟩
  exact logSoftmax_apply a0 a1 a2 a3 a4 a5 a6 r q

end Cert.ReferenceIdeal.RefValue

end
-- ==== Proof.lean ====
/-
  A fused LSTM cell with a log-softmax head, against its plain reference: the two programs compute the same three arrays
  over the extended reals.

  For every batch row, with input row x, hidden row h, cell row c, the packed gate weights Wg (2048 × 4096: the upper 1024 rows
  multiply x, the lower 1024 multiply h; the columns are the forget, input, update and output gates, 1024 each), the gate bias
  bg, the projection Wout and its bias bout:
      gates = x · Wg[0:1024] + h · Wg[1024:2048] + bg
      c'    = σ(gates_f) · c + σ(gates_i) · tanh(gates_u)
      h'    = σ(gates_o) · tanh(c')
      out   = log_softmax(h' · Wout + bout)        (row-wise; the maximum is subtracted first)
  The kernel takes 128 rows per grid point, forms the gates by two matrix products (one for x, one for h) and keeps the
  weights resident; the reference concatenates x and h and takes ONE product over 2048 indices, writes the logistic function as
  1 / (1 + exp(−·)), and takes the maximum with minus infinity once more after the row maximum. Over the extended reals these
  agree: a sum over 2048 indices is the sum over its two halves (addition is commutative and associative, no finiteness is
  used), the logistic function is by definition that quotient, a change of float format is the identity, and a fold of maxima
  that starts at minus infinity is not changed by one more maximum with it. Both programs end with (out, h', c'), row by row the
  functions `Cert.Cell.logitsOut`, `hiddenOut`, `cellOut` of the seven arguments.

  The kernel's idealization rewrote nothing, so its sanctioned-idealization conjunct is trivial. The three frames: the two
  kernels' are their frame certificates; the reference's is its run with the results dropped.
-/
import proofs.«118563_j22677427323268_1_alg».proof.Defs
import proofs.«118563_j22677427323268_1_alg».proof.Proof.Gen.Kernel
import proofs.«118563_j22677427323268_1_alg».proof.Proof.Gen.Kernel.Skeleton
import proofs.«118563_j22677427323268_1_alg».proof.Proof.Gen.Kernel.Launch
import proofs.«118563_j22677427323268_1_alg».proof.Proof.Gen.Kernel.Points
import proofs.«118563_j22677427323268_1_alg».proof.Proof.Gen.Kernel.Frame
import proofs.«118563_j22677427323268_1_alg».proof.Proof.Gen.KernelIdeal
import proofs.«118563_j22677427323268_1_alg».proof.Proof.Gen.KernelIdeal.Skeleton
import proofs.«118563_j22677427323268_1_alg».proof.Proof.Gen.KernelIdeal.Launch
import proofs.«118563_j22677427323268_1_alg».proof.Proof.Gen.KernelIdeal.Points
import proofs.«118563_j22677427323268_1_alg».proof.Proof.Gen.KernelIdeal.Frame
import proofs.«118563_j22677427323268_1_alg».proof.Proof.Gen.ReferenceIdeal
import proofs.«118563_j22677427323268_1_alg».proof.Proof.Gen.Pre_finite_inputs
import proofs.«118563_j22677427323268_1_alg».proof.Proof.Gen.KernelIdeal.Value
import proofs.«118563_j22677427323268_1_alg».proof.Proof.KernelArrays
import proofs.«118563_j22677427323268_1_alg».proof.Proof.RefStages
import proofs.«118563_j22677427323268_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its run with the three results dropped. -/
theorem frame_referenceIdeal : Cert.frame_ReferenceIdeal := fun m ρ _ =>
  (θ_run Cert.ReferenceIdeal.defs _ _).mono (fun _ h c => (h c).2.2.2) (Cert.ReferenceIdeal.Stages.run (F := Ideal) m ρ)

/-- From memories that agree on the seven arguments, the kernel's three result arrays (the whole-array functions its blocks
    tile) and the reference's three results (its stages, read index by index as the same functions) are equal. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Stages.run (F := Ideal) m' ρ')
  · rw [(hagree c).1, (hagree c).2.1, (hagree c).2.2.1, (hagree c).2.2.2.1, (hagree c).2.2.2.2.1, (hagree c).2.2.2.2.2.1, (hagree c).2.2.2.2.2.2]
    exact Cert.ReferenceIdeal.RefValue.logits_eq _ _ _ _ _ _ _
  · rw [(hagree c).1, (hagree c).2.1, (hagree c).2.2.1, (hagree c).2.2.2.1, (hagree c).2.2.2.2.1]
    exact Cert.ReferenceIdeal.RefValue.hidden_eq _ _ _ _ _
  · rw [(hagree c).1, (hagree c).2.1, (hagree c).2.2.1, (hagree c).2.2.2.1, (hagree c).2.2.2.2.1]
    exact Cert.ReferenceIdeal.RefValue.cell_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
